-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x32 : Shape := ⟨2, ![4000000, 32]⟩
abbrev S500000x4 : Shape := ⟨2, ![500000, 4]⟩
abbrev S_ : Shape := ⟨0, ![]⟩

class Facts : Prop where
  bcast_S_S4000000x32 : S_.BroadcastsInDim S4000000x32 (![] : Fin 0 → Fin S4000000x32.rank)
  reducesTo_S4000000x32_S_d0_1 : S4000000x32.ReducesTo [0, 1] S_
  h_S_ : 0 < S_.numel

variable [Facts]

def fn {F : FTy → Type} [FloatOps F] (main_arg0 : FVec F S4000000x32 .f32) (main_arg1 : IVec S500000x4 32) : IVec S_ 1 :=
  let main_v0 : FVec F S4000000x32 .f32 := Host.absf main_arg0
  let main_cst : FVec F S_ .f32 := constant S_ .f32 0x7F800000#32
  let main_v1 : FVec F S4000000x32 .f32 := broadcastInDim S4000000x32 ![] bcast_S_S4000000x32 main_cst
  let main_v2 : IVec S4000000x32 1 := cmpf .olt main_v0 main_v1
  let main_c : IVec S_ 1 := constantI S_ 1 1#1
  let main_v3 : IVec S_ 1 := (fun x v => Host.reduce IntOp.andi x v reducesTo_S4000000x32_S_d0_1 h_S_) main_v2 main_c
  main_v3
-- ==== Kernel.lean ====
abbrev S4000000x32 : Shape := ⟨2, ![4000000, 32]⟩
abbrev S500000x4 : Shape := ⟨2, ![500000, 4]⟩
abbrev S500000x256 : Shape := ⟨2, ![500000, 256]⟩
abbrev S16000x32 : Shape := ⟨2, ![16000, 32]⟩
abbrev S2000x256 : Shape := ⟨2, ![2000, 256]⟩
abbrev S2000x8x32 : Shape := ⟨3, ![2000, 8, 32]⟩
abbrev S2000x32x8 : Shape := ⟨3, ![2000, 32, 8]⟩

abbrev nBuf : Space → Nat
  | .hbm => 3
  | .vmem => 4
  | .smem => 0
  | _ => 0

abbrev bufTy : (tb : Table) → Fin (tcTables nBuf tb) → BufTy
  | .hbm, ⟨0, _⟩ => ⟨S4000000x32, .f32⟩
  | .hbm, ⟨1, _⟩ => ⟨S500000x4, .i32⟩
  | .hbm, ⟨2, _⟩ => ⟨S500000x256, .f32⟩
  | .local _ .vmem, ⟨0, _⟩ => ⟨S16000x32, .f32⟩
  | .local _ .vmem, ⟨1, _⟩ => ⟨S16000x32, .f32⟩
  | .local _ .vmem, ⟨2, _⟩ => ⟨S2000x256, .f32⟩
  | .local _ .vmem, ⟨3, _⟩ => ⟨S2000x256, .f32⟩
  | _, _ => ⟨S4000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16000x32_S16000x32_0_0 : ∀ a, (![0, 0] : Fin 2 → Nat) a + S16000x32.size a ≤ S16000x32.size a
  h_S16000x32 : 0 < S16000x32.numel
  shapeCasts_S16000x32_S2000x8x32 : S16000x32.ShapeCasts S2000x8x32
  transposes_S2000x8x32_p0_2_1_S2000x32x8 : S2000x8x32.Transposes [0, 2, 1] S2000x32x8
  shapeCasts_S2000x32x8_S2000x256 : S2000x32x8.ShapeCasts S2000x256
  inb_S2000x256_S2000x256_0_0 : ∀ a, (![0, 0] : Fin 2 → Nat) a + S2000x256.size a ≤ S2000x256.size a
  h_S2000x256 : 0 < S2000x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x32.size a ≤ S4000000x32.size a
  hwx0_0 : ∀ i : grid0.Coords, EltTy.bits .f32 = 32 ∨ (Rect.block (s := S4000000x32) S16000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S500000x256.size a
  hwx0_1 : ∀ i : grid0.Coords, EltTy.bits .f32 = 32 ∨ (Rect.block (s := S500000x256) S2000x256.size (cc0_transform_1 i) (hinb0_1 i)).WholeWords (EltTy.packing .f32)

variable [Facts₀]

abbrev win0_0 : Pipeline.Window sig grid0 :=
  Pipeline.Window.ofSpec (Memref.whole main_arg0) S16000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x32 : Shape := ⟨2, ![4000000, 32]⟩
abbrev S500000x4 : Shape := ⟨2, ![500000, 4]⟩
abbrev S500000x8x32 : Shape := ⟨3, ![500000, 8, 32]⟩
abbrev S500000x32x8 : Shape := ⟨3, ![500000, 32, 8]⟩
abbrev S500000x256 : Shape := ⟨2, ![500000, 256]⟩

abbrev nBuf : Space → Nat
  | .hbm => 5
  | .vmem => 0
  | .smem => 0
  | _ => 0

abbrev bufTy : (tb : Table) → Fin (tcTables nBuf tb) → BufTy
  | .hbm, ⟨0, _⟩ => ⟨S4000000x32, .f32⟩
  | .hbm, ⟨1, _⟩ => ⟨S500000x4, .i32⟩
  | .hbm, ⟨2, _⟩ => ⟨S500000x8x32, .f32⟩
  | .hbm, ⟨3, _⟩ => ⟨S500000x32x8, .f32⟩
  | .hbm, ⟨4, _⟩ => ⟨S500000x256, .f32⟩
  | _, _ => ⟨S4000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4000000x32_S500000x8x32 : S4000000x32.ShapeCasts S500000x8x32
  transposes_S500000x8x32_S500000x32x8_0_2_1 : S500000x8x32.Transposes [0, 2, 1] S500000x32x8
  shapeCasts_S500000x32x8_S500000x256 : S500000x32x8.ShapeCasts S500000x256

variable [Facts₀]

class Facts : Prop extends Facts₀ where

variable [Facts]
-- ==== Proof.Unshuffle.lean ====
/-
  The voxel unshuffle as one function of the array index, and the layout chain that computes it.

  A row-major array with `N * 8` rows of 32 entries is regrouped as `N` voxels of 8 sub-voxels of 32 channels, the
  sub-voxel and channel axes are exchanged, and the result is flattened to `N` rows of 256 entries. Entry
  `(n, q)` of the result, with `q = c * 8 + v`, is entry `(n * 8 + v, c)` of the operand: `v = q % 8`, `c = q / 8`.
  Nothing here depends on the element type: it is a permutation of positions.
-/
import Idealize.ShloMosaic.Lib.ValueIdx
import Idealize.ShloMosaic.Lib.ValueLayout
import Idealize.ShloMosaic.Lib.Pipeline.Value

namespace Cert.Unshuffle

open Idealize.ShloMosaic Idealize.ShloMosaic.ValueIdx

variable {α : Type}

/-- Reshape `[R, 32] → [N, 8, 32]`, exchange the last two axes, reshape `[N, 32, 8] → [N, 256]`: at `(n, q)` this reads
    the operand at row `n * 8 + q % 8`, column `q / 8`. The row and column are passed with their defining equations so
    that the statement fits any literal `R = N * 8`. -/
theorem chain_apply {R N : Nat} (x : (⟨2, ![R, 32]⟩ : Shape).Idx → α)
    (h1 : (⟨2, ![R, 32]⟩ : Shape).ShapeCasts ⟨3, ![N, 8, 32]⟩)
    (h2 : (⟨3, ![N, 8, 32]⟩ : Shape).Transposes [0, 2, 1] ⟨3, ![N, 32, 8]⟩)
    (h3 : (⟨3, ![N, 32, 8]⟩ : Shape).ShapeCasts ⟨2, ![N, 256]⟩)
    (n : Fin N) (q : Fin 256) (r : Fin R) (c : Fin 32)
    (hr : r.val = n.val * 8 + q.val % 8) (hc : c.val = q.val / 8) :
    shapeCast ⟨2, ![N, 256]⟩ (transpose ⟨3, ![N, 32, 8]⟩ [0, 2, 1] (shapeCast ⟨3, ![N, 8, 32]⟩ x h1) h2) h3 (ix2 n q)
      = x (ix2 r c) := by
  have hq : q.val < 256 := q.isLt
  have hc' : q.val / 8 < 32 := by omega
  have hv' : q.val % 8 < 8 := Nat.mod_lt _ (by norm_num)
  -- the flattening: position n * 256 + q is position (n * 32 + q / 8) * 8 + q % 8
  rw [shapeCast_apply _ h3 (ix2 n q) (ix3 n ⟨q.val / 8, hc'⟩ ⟨q.val % 8, hv'⟩)
    (by rw [Shape.rowMajor_val_two, Shape.rowMajor_val_three]
        show (n.val * 32 + q.val / 8) * 8 + q.val % 8 = n.val * 256 + q.val
        omega)]
  -- the exchange of the two inner axes
  rw [transpose_ix3_021_apply]
  -- the regrouping: position (n * 8 + v) * 32 + c is position r * 32 + c
  exact shapeCast_apply _ h1 _ (ix2 r c)
    (by rw [Shape.rowMajor_val_two, Shape.rowMajor_val_three]
        show r.val * 32 + c.val = (n.val * 8 + q.val % 8) * 32 + q.val / 8
        omega)

/-- The same at indices given whole: the result at `j` is the operand at any `k` whose row is `j`'s row times 8 plus
    `j`'s column modulo 8 and whose column is `j`'s column divided by 8. -/
theorem chain_at {R N : Nat} (x : (⟨2, ![R, 32]⟩ : Shape).Idx → α)
    (h1 : (⟨2, ![R, 32]⟩ : Shape).ShapeCasts ⟨3, ![N, 8, 32]⟩)
    (h2 : (⟨3, ![N, 8, 32]⟩ : Shape).Transposes [0, 2, 1] ⟨3, ![N, 32, 8]⟩)
    (h3 : (⟨3, ![N, 32, 8]⟩ : Shape).ShapeCasts ⟨2, ![N, 256]⟩)
    (j : (⟨2, ![N, 256]⟩ : Shape).Idx) (k : (⟨2, ![R, 32]⟩ : Shape).Idx)
    (hr : (k 0).val = (j 0).val * 8 + (j 1).val % 8) (hc : (k 1).val = (j 1).val / 8) :
    shapeCast ⟨2, ![N, 256]⟩ (transpose ⟨3, ![N, 32, 8]⟩ [0, 2, 1] (shapeCast ⟨3, ![N, 8, 32]⟩ x h1) h2) h3 j = x k := by
  exact (congrArg _ (eq_ix2 j)).trans
    ((chain_apply x h1 h2 h3 (j 0) (j 1) (k 0) (k 1) hr hc).trans (congrArg x (eq_ix2 k).symm))

/-- Where entry `i` of the unshuffled array of 500000 voxels comes from. -/
def src (i : (⟨2, ![500000, 256]⟩ : Shape).Idx) : (⟨2, ![4000000, 32]⟩ : Shape).Idx :=
  ix2 ⟨(i 0).val * 8 + (i 1).val % 8, by have h0 := idx2_lt0 i; have h1 := idx2_lt1 i; omega⟩
    ⟨(i 1).val / 8, by have h1 := idx2_lt1 i; omega⟩

/-- The unshuffled array: `whole x (n, c * 8 + v) = x (n * 8 + v, c)`. -/
def whole (x : (⟨2, ![4000000, 32]⟩ : Shape).Idx → α) : (⟨2, ![500000, 256]⟩ : Shape).Idx → α :=
  fun i => x (src i)

theorem src_row (i : (⟨2, ![500000, 256]⟩ : Shape).Idx) : (src i 0).val = (i 0).val * 8 + (i 1).val % 8 := rfl
theorem src_col (i : (⟨2, ![500000, 256]⟩ : Shape).Idx) : (src i 1).val = (i 1).val / 8 := rfl

/-- The layout chain over the whole array is the unshuffled array. -/
theorem chain_eq_whole (x : (⟨2, ![4000000, 32]⟩ : Shape).Idx → α)
    (h1 : (⟨2, ![4000000, 32]⟩ : Shape).ShapeCasts ⟨3, ![500000, 8, 32]⟩)
    (h2 : (⟨3, ![500000, 8, 32]⟩ : Shape).Transposes [0, 2, 1] ⟨3, ![500000, 32, 8]⟩)
    (h3 : (⟨3, ![500000, 32, 8]⟩ : Shape).ShapeCasts ⟨2, ![500000, 256]⟩) :
    shapeCast ⟨2, ![500000, 256]⟩ (transpose ⟨3, ![500000, 32, 8]⟩ [0, 2, 1] (shapeCast ⟨3, ![500000, 8, 32]⟩ x h1) h2) h3
      = whole x :=
  funext fun i => chain_at x h1 h2 h3 i (src i) (src_row i) (src_col i)

end Cert.Unshuffle
-- ==== Proof.KernelWhole.lean ====
/-
  The kernel's result array as one function of its argument.

  The grid has 250 points. At point `t` the body loads rows `16000 t … 16000 t + 15999` of the argument (2000 voxels of
  8 sub-voxels), regroups them as `[2000, 8, 32]`, exchanges the two inner axes and flattens to `[2000, 256]`, which it
  writes back as rows `2000 t … 2000 t + 1999` of the result. Entry `(p, q)` of that block is entry `(8 p + q % 8, q / 8)`
  of the loaded block, so entry `(2000 t + p, q)` of the result is entry `(8 (2000 t + p) + q % 8, q / 8)` of the argument:
  the unshuffled array, whatever the tiling. The 250 blocks of 2000 rows tile the 500000 rows.
-/
import proofs.«166749_j82660940579209_1_alg».proof.Proof.Gen.KernelIdeal.Value
import proofs.«166749_j82660940579209_1_alg».proof.Proof.Unshuffle
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- The stored value at `j` is the loaded block at row `8 · (j's row) + (j's column) % 8`, column `(j's column) / 8`. -/
theorem stored_apply (x0 : Vec F S16000x32 .f32) (j : S2000x256.Idx) (k : S16000x32.Idx)
    (hr : (k 0).val = (j 0).val * 8 + (j 1).val % 8) (hc : (k 1).val = (j 1).val / 8) :
    k0_pay1 x0 j = x0 k := by
  unfold k0_pay1
  exact Cert.Unshuffle.chain_at x0 shapeCasts_S16000x32_S2000x8x32 transposes_S2000x8x32_p0_2_1_S2000x32x8
    shapeCasts_S2000x32x8_S2000x256 j k hr hc

/-- Both index maps send point `t` to block `(t, 0)` (decided over the 250 points). -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The source row of an entry of the stored block, inside the loaded block. -/
def blockSrc (j : S2000x256.Idx) : S16000x32.Idx :=
  ix2 ⟨(j 0).val * 8 + (j 1).val % 8, by have h0 := idx2_lt0 j; have h1 := idx2_lt1 j; omega⟩
    ⟨(j 1).val / 8, by have h1 := idx2_lt1 j; omega⟩

/-- What point `t` writes back is block `t` of the unshuffled argument. -/
theorem flushed_eq (c : Dev nD) (t : Fin cfg0.N) :
    (dats m 0 c).flushed 1 t
      = ((cfg0.win 1).blk t).view.read (Elt F) (Cert.Unshuffle.whole (V m c main_arg0)) := by
  rw [flushed1]
  unfold out0_1
  rw [View.canon_unit_zero zero_offsets]
  simp only [View.ld_unit_zero (S := S16000x32) zero_offsets]
  obtain ⟨e0, e1, e2, e3⟩ := block_index t
  funext j
  show k0_pay1 (iblk m c 0 t) j = Cert.Unshuffle.whole (V m c main_arg0) (((cfg0.win 1).blk t).view.emb j)
  refine (stored_apply (iblk m c 0 t) j (blockSrc j) rfl rfl).trans ?_
  show V m c main_arg0 (((cfg0.win 0).blk t).view.emb (blockSrc j))
    = V m c main_arg0 (Cert.Unshuffle.src (((cfg0.win 1).blk t).view.emb j))
  refine congrArg (V m c main_arg0) (funext fun a => Fin.ext ?_)
  have hj0 : (j 0).val < 2000 := (j 0).isLt
  have hj1 : (j 1).val < 256 := (j 1).isLt
  match a with
  | ⟨0, _⟩ =>
    show win0_0.index t (0 : Fin 2) * 16000 + 1 * ((j 0).val * 8 + (j 1).val % 8)
      = (win0_1.index t (0 : Fin 2) * 2000 + 1 * (j 0).val) * 8 + (win0_1.index t (1 : Fin 2) * 256 + 1 * (j 1).val) % 8
    rw [e0, e2, e3]; omega
  | ⟨1, _⟩ =>
    show win0_0.index t (1 : Fin 2) * 32 + 1 * ((j 1).val / 8)
      = (win0_1.index t (1 : Fin 2) * 256 + 1 * (j 1).val) / 8
    rw [e1, e3]; omega

/-- An index of the result array is in point `t`'s block iff each coordinate is in the block's range on its axis. -/
theorem mem_block (t : Fin cfg0.N) (i : S500000x256.Idx) :
    i ∈ ((cfg0.win 1).blk t).view.set ↔ ∀ a : Fin 2, win0_1.index t a * S2000x256.size a ≤ (i a).val
      ∧ (i a).val < win0_1.index t a * S2000x256.size a + S2000x256.size a := by
  show i ∈ ((View.whole main_v0).slice (win0_1.rect t)).set ↔ _
  rw [View.set_slice_whole, Rect.mem_set_unit]
  exact Iff.rfl

/-- Row `n` of the result lies in the block of point `n / 2000`. -/
theorem covered (i : S500000x256.Idx) :
    ∃ t : Fin cfg0.N, (cfg0.win 1).flush t = true ∧ i ∈ ((cfg0.win 1).blk t).view.set := by
  have hi0 : (i 0).val < 500000 := (i 0).isLt
  have hi1 : (i 1).val < 256 := (i 1).isLt
  have hN : grid0.N = 250 := N_0
  let t : Fin cfg0.N := ⟨(i 0).val / 2000, by show (i 0).val / 2000 < grid0.N; omega⟩
  obtain ⟨-, -, e2, e3⟩ := block_index t
  have ht : t.val = (i 0).val / 2000 := rfl
  refine ⟨t, flush0_1 t, ?_⟩
  rw [mem_block]
  intro a
  match a with
  | ⟨0, _⟩ =>
    show win0_1.index t (0 : Fin 2) * 2000 ≤ (i 0).val ∧ (i 0).val < win0_1.index t (0 : Fin 2) * 2000 + 2000
    rw [e2, ht]; omega
  | ⟨1, _⟩ =>
    show win0_1.index t (1 : Fin 2) * 256 ≤ (i 1).val ∧ (i 1).val < win0_1.index t (1 : Fin 2) * 256 + 256
    rw [e3]; omega

/-- The result array after the run is the unshuffled argument. -/
theorem final (c : Dev nD) :
    (dats m 0 c).arrAt 1 cfg0.N = Cert.Unshuffle.whole (m ((c : Thread nD τ).loc main_arg0)) :=
  (dats m 0 c).arrAt_eq_of_cover 1 (Cert.Unshuffle.whole (V m c main_arg0)) (fun t _ => flushed_eq m c t) covered

/-- The kernel's run, read: the result at the unshuffled argument, both arguments unchanged. -/
theorem run : θ_run defs (onTc (τ := τ) (main (F := F))) ⟨m, fun _ => 0, ρ⟩ fun r => ∀ c : Dev nD,
      r.2.mem ((c : Thread nD τ).loc main_v0) = Cert.Unshuffle.whole (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.lean ====
/-
  The voxel unshuffle: `out[n, c * 8 + v] = features[n * 8 + v, c]`, and `indices` passed through.

  The reference regroups the `[4000000, 32]` array as `[500000, 8, 32]`, exchanges the two inner axes and flattens to
  `[500000, 256]`. The kernel does the same to 250 row blocks of 2000 voxels each. Both are the same permutation of
  positions (`Cert.Unshuffle.whole`): no arithmetic is done on the entries, so nothing is asked of them and the
  precondition is never opened. The idealization rewrote nothing, so its ledger has no entry to restate.
-/
import proofs.«166749_j82660940579209_1_alg».proof.Defs
import proofs.«166749_j82660940579209_1_alg».proof.Proof.Gen.Kernel
import proofs.«166749_j82660940579209_1_alg».proof.Proof.Gen.Kernel.Skeleton
import proofs.«166749_j82660940579209_1_alg».proof.Proof.Gen.Kernel.Launch
import proofs.«166749_j82660940579209_1_alg».proof.Proof.Gen.Kernel.Points
import proofs.«166749_j82660940579209_1_alg».proof.Proof.Gen.Kernel.Frame
import proofs.«166749_j82660940579209_1_alg».proof.Proof.Gen.KernelIdeal
import proofs.«166749_j82660940579209_1_alg».proof.Proof.Gen.KernelIdeal.Skeleton
import proofs.«166749_j82660940579209_1_alg».proof.Proof.Gen.KernelIdeal.Launch
import proofs.«166749_j82660940579209_1_alg».proof.Proof.Gen.KernelIdeal.Points
import proofs.«166749_j82660940579209_1_alg».proof.Proof.Gen.KernelIdeal.Frame
import proofs.«166749_j82660940579209_1_alg».proof.Proof.Gen.ReferenceIdeal
import proofs.«166749_j82660940579209_1_alg».proof.Proof.Gen.Pre_finite_inputs
import proofs.«166749_j82660940579209_1_alg».proof.Proof.Gen.KernelIdeal.Value
import proofs.«166749_j82660940579209_1_alg».proof.Proof.Gen.ReferenceIdeal.Run
import proofs.«166749_j82660940579209_1_alg».proof.Proof.Unshuffle
import proofs.«166749_j82660940579209_1_alg».proof.Proof.KernelWhole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- Both programs end with the unshuffled argument in the result array and `indices` as it was. -/
theorem algebraic : Cert.algebraic_KernelIdeal_ReferenceIdeal := by
  intro m ρ m' ρ' _ hagree
  refine ⟨fun c => Cert.Unshuffle.whole (m ((c.tc : Thread Cert.KernelIdeal.nD Cert.KernelIdeal.τ).loc Cert.KernelIdeal.main_arg0)),
    fun c => m ((c.tc : Thread Cert.KernelIdeal.nD Cert.KernelIdeal.τ).loc Cert.KernelIdeal.main_arg1), ?_, ?_⟩
  · exact (θ_run Cert.KernelIdeal.defs _ _).mono
      (fun _ h c => ⟨(h c).1, (h c).2.2, (h c).2.1, (h c).2.2⟩)
      (Cert.KernelIdeal.Whole.run (F := Ideal) m ρ)
  · refine (θ_run Cert.ReferenceIdeal.defs _ _).mono (fun _ h c => ⟨?_, ?_, (h c).2.2.1, (h c).2.2.2⟩)
      (Cert.ReferenceIdeal.Value.run (F := Ideal) m' ρ')
    · rw [(h c).1, Cert.Unshuffle.chain_eq_whole, (hagree c).1]
    · rw [(h c).2.1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
